-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1 : Shape := ⟨2, ![131072, 1]⟩
abbrev S1 : Shape := ⟨1, ![1]⟩
abbrev S131072x128 : Shape := ⟨2, ![131072, 128]⟩
abbrev S131072x256 : Shape := ⟨2, ![131072, 256]⟩
abbrev S_ : Shape := ⟨0, ![]⟩

class Facts : Prop where
  bcast_S_S131072x1 : S_.BroadcastsInDim S131072x1 (![] : Fin 0 → Fin S131072x1.rank)
  reducesTo_S131072x1_S_d0_1 : S131072x1.ReducesTo [0, 1] S_
  h_S_ : 0 < S_.numel
  bcast_S_S1 : S_.BroadcastsInDim S1 (![] : Fin 0 → Fin S1.rank)
  reducesTo_S1_S_d0 : S1.ReducesTo [0] S_
  bcast_S_S131072x128 : S_.BroadcastsInDim S131072x128 (![] : Fin 0 → Fin S131072x128.rank)
  reducesTo_S131072x128_S_d0_1 : S131072x128.ReducesTo [0, 1] S_
  bcast_S_S131072x256 : S_.BroadcastsInDim S131072x256 (![] : Fin 0 → Fin S131072x256.rank)
  reducesTo_S131072x256_S_d0_1 : S131072x256.ReducesTo [0, 1] S_

variable [Facts]

def fn_part1 {F : FTy → Type} [FloatOps F] (main_arg4 : FVec F S131072x256 .f32) (main_v13 : IVec S_ 1) (main_v16 : IVec S131072x128 1) : IVec S_ 1 :=
  let main_c_5 : IVec S_ 1 := constantI S_ 1 1#1
  let main_v17 : IVec S_ 1 := (fun x v => Host.reduce IntOp.andi x v reducesTo_S131072x128_S_d0_1 h_S_) main_v16 main_c_5
  let main_v18 : IVec S_ 1 := andi main_v13 main_v17
  let main_v19 : FVec F S131072x256 .f32 := Host.absf main_arg4
  let main_cst_6 : FVec F S_ .f32 := constant S_ .f32 0x7F800000#32
  let main_v20 : FVec F S131072x256 .f32 := broadcastInDim S131072x256 ![] bcast_S_S131072x256 main_cst_6
  let main_v21 : IVec S131072x256 1 := cmpf .olt main_v19 main_v20
  let main_c_7 : IVec S_ 1 := constantI S_ 1 1#1
  let main_v22 : IVec S_ 1 := (fun x v => Host.reduce IntOp.andi x v reducesTo_S131072x256_S_d0_1 h_S_) main_v21 main_c_7
  let main_v23 : IVec S_ 1 := andi main_v18 main_v22
  main_v23

def fn {F : FTy → Type} [FloatOps F] (main_arg0 : FVec F S131072x1 .f32) (main_arg1 : FVec F S1 .f32) (main_arg2 : FVec F S1 .f32) (main_arg3 : FVec F S131072x128 .f32) (main_arg4 : FVec F S131072x256 .f32) : IVec S_ 1 :=
  let main_v0 : FVec F S131072x1 .f32 := Host.absf main_arg0
  let main_cst : FVec F S_ .f32 := constant S_ .f32 0x7F800000#32
  let main_v1 : FVec F S131072x1 .f32 := broadcastInDim S131072x1 ![] bcast_S_S131072x1 main_cst
  let main_v2 : IVec S131072x1 1 := cmpf .olt main_v0 main_v1
  let main_c : IVec S_ 1 := constantI S_ 1 1#1
  let main_v3 : IVec S_ 1 := (fun x v => Host.reduce IntOp.andi x v reducesTo_S131072x1_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S131072x128 .f32 := Host.absf main_arg3
  let main_cst_4 : FVec F S_ .f32 := constant S_ .f32 0x7F800000#32
  let main_v15 : FVec F S131072x128 .f32 := broadcastInDim S131072x128 ![] bcast_S_S131072x128 main_cst_4
  let main_v16 : IVec S131072x128 1 := cmpf .olt main_v14 main_v15
  fn_part1 (F := F) main_arg4 main_v13 main_v16
-- ==== Kernel.lean ====
abbrev S131072x1 : Shape := ⟨2, ![131072, 1]⟩
abbrev S1 : Shape := ⟨1, ![1]⟩
abbrev S131072x128 : Shape := ⟨2, ![131072, 128]⟩
abbrev S131072x256 : Shape := ⟨2, ![131072, 256]⟩
abbrev S1x256 : Shape := ⟨2, ![1, 256]⟩
abbrev S1x128 : Shape := ⟨2, ![1, 128]⟩
abbrev S4096x256 : Shape := ⟨2, ![4096, 256]⟩
abbrev S4096x128 : Shape := ⟨2, ![4096, 128]⟩
abbrev S4096x1 : Shape := ⟨2, ![4096, 1]⟩
abbrev S256 : Shape := ⟨1, ![256]⟩
abbrev S128 : Shape := ⟨1, ![128]⟩
abbrev S_ : Shape := ⟨0, ![]⟩
abbrev S1x1 : Shape := ⟨2, ![1, 1]⟩

abbrev nBuf : Space → Nat
  | .hbm => 26
  | .vmem => 7
  | .smem => 0
  | _ => 0

abbrev bufTy : (tb : Table) → Fin (tcTables nBuf tb) → BufTy
  | .hbm, ⟨0, _⟩ => ⟨S131072x1, .f32⟩
  | .hbm, ⟨1, _⟩ => ⟨S1, .f32⟩
  | .hbm, ⟨2, _⟩ => ⟨S1, .f32⟩
  | .hbm, ⟨3, _⟩ => ⟨S131072x128, .f32⟩
  | .hbm, ⟨4, _⟩ => ⟨S131072x256, .f32⟩
  | .hbm, ⟨5, _⟩ => ⟨S1x256, .f32⟩
  | .hbm, ⟨6, _⟩ => ⟨S1x128, .f32⟩
  | .hbm, ⟨7, _⟩ => ⟨S1x256, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x128, .f32⟩
  | .local _ .vmem, ⟨3, _⟩ => ⟨S4096x128, .f32⟩
  | .local _ .vmem, ⟨4, _⟩ => ⟨S1x256, .f32⟩
  | .local _ .vmem, ⟨5, _⟩ => ⟨S1x128, .f32⟩
  | .local _ .vmem, ⟨6, _⟩ => ⟨S1x256, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x256_S1x256_0_0 : ∀ a, (![0, 0] : Fin 2 → Nat) a + S1x256.size a ≤ S1x256.size a
  h_S1x256 : 0 < S1x256.numel
  inb_S1x128_S1x128_0_0 : ∀ a, (![0, 0] : Fin 2 → Nat) a + S1x128.size a ≤ S1x128.size a
  h_S1x128 : 0 < S1x128.numel
  inb_S4096x256_S4096x256_0_0 : ∀ a, (![0, 0] : Fin 2 → Nat) a + S4096x256.size a ≤ S4096x256.size a
  h_S4096x256 : 0 < S4096x256.numel
  inb_S4096x128_S4096x128_0_0 : ∀ a, (![0, 0] : Fin 2 → Nat) a + S4096x128.size a ≤ S4096x128.size a
  h_S4096x128 : 0 < S4096x128.numel
  slices_S4096x128_o0_0_S4096x1 : S4096x128.Slices ![0, 0] S4096x1
  shapeCasts_S1x256_S1x256 : S1x256.ShapeCasts S1x256
  reduces_S4096x256_S256 : S4096x256.Reduces [0] S256
  shapeCasts_S256_S1x256 : S256.ShapeCasts S1x256
  shapeCasts_S1x128_S1x128 : S1x128.ShapeCasts S1x128
  reduces_S4096x128_S128 : S4096x128.Reduces [0] S128
  shapeCasts_S128_S1x128 : S128.ShapeCasts S1x128
  broadcasts_S4096x1_S4096x256 : S4096x1.Broadcasts S4096x256
  shapeCasts_S1x256_S256 : S1x256.ShapeCasts S256
  bcast_S_S256 : S_.BroadcastsInDim S256 (![] : Fin 0 → Fin S256.rank)
  slices_S1x128_S1x1_0_0 : S1x128.Slices ![0, 0] S1x1
  shapeCasts_S1x1_S_ : S1x1.ShapeCasts S_
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)

variable [Facts₀]

abbrev win0_0 : Pipeline.Window sig grid0 :=
  Pipeline.Window.ofSpec (Memref.whole main_arg4) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x1 : Shape := ⟨2, ![131072, 1]⟩
abbrev S1 : Shape := ⟨1, ![1]⟩
abbrev S131072x128 : Shape := ⟨2, ![131072, 128]⟩
abbrev S131072x256 : Shape := ⟨2, ![131072, 256]⟩
abbrev S_ : Shape := ⟨0, ![]⟩
abbrev S256 : Shape := ⟨1, ![256]⟩
abbrev S1x256 : Shape := ⟨2, ![1, 256]⟩
abbrev S128 : Shape := ⟨1, ![128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S131072x1, .f32⟩
  | .hbm, ⟨1, _⟩ => ⟨S1, .f32⟩
  | .hbm, ⟨2, _⟩ => ⟨S1, .f32⟩
  | .hbm, ⟨3, _⟩ => ⟨S131072x128, .f32⟩
  | .hbm, ⟨4, _⟩ => ⟨S131072x256, .f32⟩
  | .hbm, ⟨5, _⟩ => ⟨S_, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S1x256, .f32⟩
  | .hbm, ⟨11, _⟩ => ⟨S131072x256, .f32⟩
  | .hbm, ⟨12, _⟩ => ⟨S131072x256, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S131072x128, .f32⟩
  | .hbm, ⟨20, _⟩ => ⟨S131072x128, .f32⟩
  | .hbm, ⟨21, _⟩ => ⟨S131072x1, .f32⟩
  | .hbm, ⟨22, _⟩ => ⟨S131072x256, .f32⟩
  | .hbm, ⟨23, _⟩ => ⟨S131072x256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S_, .f32⟩
  | .hbm, ⟨29, _⟩ => ⟨S_, .f32⟩
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  reducesTo_S131072x256_S256_d0 : S131072x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  reducesTo_S131072x128_S128_d0 : S131072x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  slices_S131072x128_S131072x1_0_0 : S131072x128.Slices ![0, 0] S131072x1
  bcast_S131072x1_S131072x256_0_1 : S131072x1.BroadcastsInDim S131072x256 (![0, 1] : Fin 2 → Fin S131072x256.rank)
  reducesTo_S256_S_d0 : S256.ReducesTo [0] S_

variable [Facts₀]

class Facts : Prop extends Facts₀ where

variable [Facts]
-- ==== Proof.Pieces.lean ====
/-
  What one grid point leaves in the three accumulators.

  The body reads a block of 4096 rows of each input. At the first point it first stores zeros into the three
  one-row accumulators; at every point it then adds to each accumulator a sum over the block's rows: the
  column sums of the first input, the column sums of the second input, and the sums over the rows of the
  first input times column 0 of the second. Each accumulator is stored whole, so what the point leaves in it
  is the stored value itself: the one payload, of the blocks and of what the accumulator held before (at the
  first point: of the zeros just stored, read back).
-/
import proofs.«100468_j22574348108101_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later point (any but the first) leaves in accumulator 0: the running column sums of the first input, the block's sum added to what
    the accumulator held. -/
theorem later_2 (c : Dev nD) (i : grid0.Coords) (a1 : Memref sig .tc .vmem S4096x256 .f32) (h1 : a1.IsWhole) (a2 : Memref sig .tc .vmem S4096x128 .f32) (h2 : a2.IsWhole) (a3 : Memref sig .tc .vmem S1x256 .f32) (h3 : a3.IsWhole) (a4 : Memref sig .tc .vmem S1x128 .f32) (h4 : a4.IsWhole) (a5 : Memref sig .tc .vmem S1x256 .f32) (h5 : a5.IsWhole) (hc : ¬cond0_0 i)
    (x0 : Vec F S4096x256 .f32) (x1 : Vec F S4096x128 .f32) (xo2 : Vec F S1x256 .f32) (xo3 : Vec F S1x128 .f32) (xo4 : Vec F S1x256 .f32) :
    out0_B_2 c i a1 h1 a2 h2 a3 h3 a4 h4 a5 h5 hc x0 x1 xo2 xo3 xo4 = k0_pay4 x0 xo2 := by
  unfold out0_B_2
  rw [View.read_writes_eq_canon _ _ _ (cover0_B_2 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S4096x256) hz, View.ld_unit_zero (S := S4096x128) hz, View.ld_unit_zero (S := S1x256) hz,
    View.ld_unit_zero (S := S1x128) hz]

/-- The first point leaves in accumulator 0 the same sum added to the zeros it stored there first. -/
theorem first_2 (c : Dev nD) (i : grid0.Coords) (a1 : Memref sig .tc .vmem S4096x256 .f32) (h1 : a1.IsWhole) (a2 : Memref sig .tc .vmem S4096x128 .f32) (h2 : a2.IsWhole) (a3 : Memref sig .tc .vmem S1x256 .f32) (h3 : a3.IsWhole) (a4 : Memref sig .tc .vmem S1x128 .f32) (h4 : a4.IsWhole) (a5 : Memref sig .tc .vmem S1x256 .f32) (h5 : a5.IsWhole) (hc : cond0_0 i)
    (x0 : Vec F S4096x256 .f32) (x1 : Vec F S4096x128 .f32) :
    out0_A_2 c i a1 h1 a2 h2 a3 h3 a4 h4 a5 h5 hc x0 x1 = k0_pay4 x0 (k0_pay1 (F := F)) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S1x256) hz, View.readCov_unit_zero (S := S1x256) _ hz]
  simp only [View.readAt_eq_ld, h1.read_unread, h2.read_unread,
    View.ld_unit_zero (S := S4096x256) hz, View.ld_unit_zero (S := S4096x128) hz]

/-- A later point (any but the first) leaves in accumulator 1: the running column sums of the second input, the block's sum added to what
    the accumulator held. -/
theorem later_3 (c : Dev nD) (i : grid0.Coords) (a1 : Memref sig .tc .vmem S4096x256 .f32) (h1 : a1.IsWhole) (a2 : Memref sig .tc .vmem S4096x128 .f32) (h2 : a2.IsWhole) (a3 : Memref sig .tc .vmem S1x256 .f32) (h3 : a3.IsWhole) (a4 : Memref sig .tc .vmem S1x128 .f32) (h4 : a4.IsWhole) (a5 : Memref sig .tc .vmem S1x256 .f32) (h5 : a5.IsWhole) (hc : ¬cond0_0 i)
    (x0 : Vec F S4096x256 .f32) (x1 : Vec F S4096x128 .f32) (xo2 : Vec F S1x256 .f32) (xo3 : Vec F S1x128 .f32) (xo4 : Vec F S1x256 .f32) :
    out0_B_3 c i a1 h1 a2 h2 a3 h3 a4 h4 a5 h5 hc x0 x1 xo2 xo3 xo4 = k0_pay5 x1 xo3 := by
  unfold out0_B_3
  rw [View.read_writes_eq_canon _ _ _ (cover0_B_3 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S4096x256) hz, View.ld_unit_zero (S := S4096x128) hz, View.ld_unit_zero (S := S1x256) hz,
    View.ld_unit_zero (S := S1x128) hz]

/-- The first point leaves in accumulator 1 the same sum added to the zeros it stored there first. -/
theorem first_3 (c : Dev nD) (i : grid0.Coords) (a1 : Memref sig .tc .vmem S4096x256 .f32) (h1 : a1.IsWhole) (a2 : Memref sig .tc .vmem S4096x128 .f32) (h2 : a2.IsWhole) (a3 : Memref sig .tc .vmem S1x256 .f32) (h3 : a3.IsWhole) (a4 : Memref sig .tc .vmem S1x128 .f32) (h4 : a4.IsWhole) (a5 : Memref sig .tc .vmem S1x256 .f32) (h5 : a5.IsWhole) (hc : cond0_0 i)
    (x0 : Vec F S4096x256 .f32) (x1 : Vec F S4096x128 .f32) :
    out0_A_3 c i a1 h1 a2 h2 a3 h3 a4 h4 a5 h5 hc x0 x1 = k0_pay5 x1 (k0_pay2 (F := F)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S1x128) hz, View.readCov_unit_zero (S := S1x128) _ hz]
  simp only [View.readAt_eq_ld, h1.read_unread, h2.read_unread,
    View.ld_unit_zero (S := S4096x256) hz, View.ld_unit_zero (S := S4096x128) hz]

/-- A later point (any but the first) leaves in accumulator 2: the running cross sums, the block's sum added to what
    the accumulator held. -/
theorem later_4 (c : Dev nD) (i : grid0.Coords) (a1 : Memref sig .tc .vmem S4096x256 .f32) (h1 : a1.IsWhole) (a2 : Memref sig .tc .vmem S4096x128 .f32) (h2 : a2.IsWhole) (a3 : Memref sig .tc .vmem S1x256 .f32) (h3 : a3.IsWhole) (a4 : Memref sig .tc .vmem S1x128 .f32) (h4 : a4.IsWhole) (a5 : Memref sig .tc .vmem S1x256 .f32) (h5 : a5.IsWhole) (hc : ¬cond0_0 i)
    (x0 : Vec F S4096x256 .f32) (x1 : Vec F S4096x128 .f32) (xo2 : Vec F S1x256 .f32) (xo3 : Vec F S1x128 .f32) (xo4 : Vec F S1x256 .f32) :
    out0_B_4 c i a1 h1 a2 h2 a3 h3 a4 h4 a5 h5 hc x0 x1 xo2 xo3 xo4 = k0_pay6 x0 x1 xo4 := by
  unfold out0_B_4
  rw [View.read_writes_eq_canon _ _ _ (cover0_B_4 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S4096x256) hz, View.ld_unit_zero (S := S4096x128) hz, View.ld_unit_zero (S := S1x256) hz,
    View.ld_unit_zero (S := S1x128) hz]

/-- The first point leaves in accumulator 2 the same sum added to the zeros it stored there first. -/
theorem first_4 (c : Dev nD) (i : grid0.Coords) (a1 : Memref sig .tc .vmem S4096x256 .f32) (h1 : a1.IsWhole) (a2 : Memref sig .tc .vmem S4096x128 .f32) (h2 : a2.IsWhole) (a3 : Memref sig .tc .vmem S1x256 .f32) (h3 : a3.IsWhole) (a4 : Memref sig .tc .vmem S1x128 .f32) (h4 : a4.IsWhole) (a5 : Memref sig .tc .vmem S1x256 .f32) (h5 : a5.IsWhole) (hc : cond0_0 i)
    (x0 : Vec F S4096x256 .f32) (x1 : Vec F S4096x128 .f32) :
    out0_A_4 c i a1 h1 a2 h2 a3 h3 a4 h4 a5 h5 hc x0 x1 = k0_pay6 x0 x1 (k0_pay3 (F := F)) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S1x256) hz, View.readCov_unit_zero (S := S1x256) _ hz]
  simp only [View.readAt_eq_ld, h1.read_unread, h2.read_unread,
    View.ld_unit_zero (S := S4096x256) hz, View.ld_unit_zero (S := S4096x128) hz]

end Cert.KernelIdeal.Pieces

end
-- ==== Proof.Payloads.lean ====
/-
  The three stored values read at an index, on the extended reals.

  At column `o` of the one-row accumulators: the first input's block contributes the sum over its 4096 rows of
  column `o`; the second input's block the same over its own columns; the cross term the sum over the rows of
  the first input at column `o` times the second input at column 0 (the slice of column 0, spread over the 256
  columns, is the factor). Each is added to what the accumulator held at that column. The zeros stored at the
  first point are the extended real 0.
-/
import proofs.«100468_j22574348108101_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen

/-- The sum over the rows of a [4096, 256] block, at column `o`. -/
theorem rowsum256 (v : FVec Ideal S4096x256 .f32) (h : S4096x256.Reduces [0] S256) (hφ : FKind.Formats .f32)
    (hacc : (0x00000000#32 : BitVec 32) = 0x00000000#32) (o : Fin 256) :
    multiReduction (F := Ideal) .add [0] S256 v 0x00000000#32 h hφ hacc (ix1 o) = ∑ r : Fin 4096, v (ix2 r o) :=
  (Ideal.multiReduction_add_single v 0x00000000#32 h hφ hacc (ix1 o)).trans
    (Finset.sum_congr rfl fun r _ => congrArg v (funext fun a => by match a with | ⟨0, _⟩ => rfl | ⟨1, _⟩ => rfl))

/-- The sum over the rows of a [4096, 128] block, at column `d`. -/
theorem rowsum128 (v : FVec Ideal S4096x128 .f32) (h : S4096x128.Reduces [0] S128) (hφ : FKind.Formats .f32)
    (hacc : (0x00000000#32 : BitVec 32) = 0x00000000#32) (d : Fin 128) :
    multiReduction (F := Ideal) .add [0] S128 v 0x00000000#32 h hφ hacc (ix1 d) = ∑ r : Fin 4096, v (ix2 r d) :=
  (Ideal.multiReduction_add_single v 0x00000000#32 h hφ hacc (ix1 d)).trans
    (Finset.sum_congr rfl fun r _ => congrArg v (funext fun a => by match a with | ⟨0, _⟩ => rfl | ⟨1, _⟩ => rfl))

/-- The zeros stored into a [1, 256] accumulator. -/
theorem zeros256_apply (j : S1x256.Idx) : k0_pay1 (F := Ideal) j = 0 := Ideal.ofBits_zero_f32
/-- The zeros stored into the [1, 128] accumulator. -/
theorem zeros128_apply (j : S1x128.Idx) : k0_pay2 (F := Ideal) j = 0 := Ideal.ofBits_zero_f32
/-- The zeros stored into the other [1, 256] accumulator. -/
theorem zeros256'_apply (j : S1x256.Idx) : k0_pay3 (F := Ideal) j = 0 := Ideal.ofBits_zero_f32

/-- The first accumulator's new value at column `o`: what it held plus the block's column sum. -/
theorem colsumE_apply (v3 : Vec Ideal S4096x256 .f32) (v6 : Vec Ideal S1x256 .f32) (u : Fin 1) (o : Fin 256) :
    k0_pay4 (F := Ideal) v3 v6 (ix2 u o) = v6 (ix2 u o) + ∑ r : Fin 4096, v3 (ix2 r o) := by
  unfold k0_pay4
  refine (addf_apply _ _ _).trans ?_
  refine congrArg₂ (· + ·) ?_ ?_
  · rw [shapeCast_self]
  · refine (shapeCast_a_1a_apply _ _ u o).trans ?_
    exact rowsum256 v3 _ _ _ o

/-- The second accumulator's new value at column `d`: what it held plus the block's column sum. -/
theorem colsumG_apply (v4 : Vec Ideal S4096x128 .f32) (v12 : Vec Ideal S1x128 .f32) (u : Fin 1) (d : Fin 128) :
    k0_pay5 (F := Ideal) v4 v12 (ix2 u d) = v12 (ix2 u d) + ∑ r : Fin 4096, v4 (ix2 r d) := by
  unfold k0_pay5
  refine (addf_apply _ _ _).trans ?_
  refine congrArg₂ (· + ·) ?_ ?_
  · rw [shapeCast_self]
  · refine (shapeCast_a_1a_apply _ _ u d).trans ?_
    exact rowsum128 v4 _ _ _ d

/-- The third accumulator's new value at column `o`: what it held plus the sum over the block's rows of the
    first input at column `o` times the second input at column 0. -/
theorem cross_apply (v3 : Vec Ideal S4096x256 .f32) (v4 : Vec Ideal S4096x128 .f32) (v18 : Vec Ideal S1x256 .f32)
    (u : Fin 1) (o : Fin 256) :
    k0_pay6 (F := Ideal) v3 v4 v18 (ix2 u o)
      = v18 (ix2 u o) + ∑ r : Fin 4096, v3 (ix2 r o) * v4 (ix2 r (0 : Fin 128)) := by
  unfold k0_pay6
  refine (addf_apply _ _ _).trans ?_
  refine congrArg₂ (· + ·) ?_ ?_
  · rw [shapeCast_self]
  · refine (shapeCast_a_1a_apply _ _ u o).trans ?_
    refine (rowsum256 _ _ _ _ o).trans ?_
    refine Finset.sum_congr rfl fun r _ => ?_
    refine (mulf_apply _ _ _).trans ?_
    refine congrArg (v3 (ix2 r o) * ·) ?_
    refine (broadcastTo_apply _ _ (ix2 r o) (ix2 r (0 : Fin 1)) (fun a => ?_)).trans ?_
    · match a with
      | ⟨0, _⟩ => show r.val = if (4096 : Nat) = 1 then 0 else r.val; rw [if_neg (by decide)]
      | ⟨1, _⟩ => show 0 = if (1 : Nat) = 1 then 0 else o.val; rw [if_pos rfl]
    · exact extractStridedSlice_apply _ v4 _ (ix2 r (0 : Fin 1)) (ix2 r (0 : Fin 128)) (fun a => by
        match a with
        | ⟨0, _⟩ => show r.val = 0 + r.val; omega
        | ⟨1, _⟩ => show 0 = 0 + 0; rfl)

end Cert.KernelIdeal.Payloads

end
-- ==== Proof.Acc.lean ====
/-
  The three accumulators after each grid point, and so after the last.

  Point `t` of the 32 reads rows `4096 t` … `4096 t + 4095` of each input. By induction on the point, after point
  `n` the first accumulator holds at column `o` the sum over the points `t ≤ n` of the block's column sum, the
  second the same for the other input, the third the sums of the products with the other input's column 0:
  the first point adds its block's sums to zero, every later one to what the point before left.
-/
import proofs.«100468_j22574348108101_1_alg».proof.Proof.Pieces
import proofs.«100468_j22574348108101_1_alg».proof.Proof.Payloads
import Mathlib.Algebra.BigOperators.Fin

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Pieces Cert.KernelIdeal.Payloads

variable (m : (ℓ : Loc nD τ sig) → Buf (Elt Ideal) ℓ)

/-- The block of the first input (the [131072, 256] array) that point `t` reads. -/
abbrev eblk (c : Dev nD) (t : Fin cfg0.N) : FVec Ideal S4096x256 .f32 := iblk m c 0 t
/-- The block of the second input (the [131072, 128] array) that point `t` reads. -/
abbrev gblk (c : Dev nD) (t : Fin cfg0.N) : FVec Ideal S4096x128 .f32 := iblk m c 1 t

/-- Point `t` of the first `n + 1` points, as a point of the grid. -/
abbrev pt {n : ℕ} (h : n < cfg0.N) (t : Fin (n + 1)) : Fin cfg0.N := ⟨t.val, Nat.lt_of_lt_of_le t.isLt h⟩

/-- What the three accumulators hold after point `n`, column by column. -/
def Holds (c : Dev nD) (n : ℕ) (h : n < cfg0.N) : Prop :=
  (∀ (u : Fin 1) (o : Fin 256), (outsAt0 m c n h).1 (ix2 u o)
      = ∑ t : Fin (n + 1), ∑ r : Fin 4096, eblk m c (pt h t) (ix2 r o))
  ∧ (∀ (u : Fin 1) (d : Fin 128), (outsAt0 m c n h).2.1 (ix2 u d)
      = ∑ t : Fin (n + 1), ∑ r : Fin 4096, gblk m c (pt h t) (ix2 r d))
  ∧ (∀ (u : Fin 1) (o : Fin 256), (outsAt0 m c n h).2.2 (ix2 u o)
      = ∑ t : Fin (n + 1), ∑ r : Fin 4096, eblk m c (pt h t) (ix2 r o) * gblk m c (pt h t) (ix2 r (0 : Fin 128)))

theorem holds (c : Dev nD) : ∀ (n : ℕ) (h : n < cfg0.N), Holds m c n h
  | 0, h => by
    have e := outsAt0_A m c ⟨0, h⟩ rfl
    refine ⟨fun u o => ?_, fun u d => ?_, fun u o => ?_⟩
    · rw [show outsAt0 m c 0 h = _ from e]; dsimp only
      refine (congrFun (first_2 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
        (iblk m c 0 ⟨0, h⟩) (iblk m c 1 ⟨0, h⟩)) (ix2 u o)).trans ?_
      refine (colsumE_apply (eblk m c ⟨0, h⟩) _ u o).trans ?_
      rw [zeros256_apply, zero_add, Fin.sum_univ_one]
      rfl
    · rw [show outsAt0 m c 0 h = _ from e]; dsimp only
      refine (congrFun (first_3 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
        (iblk m c 0 ⟨0, h⟩) (iblk m c 1 ⟨0, h⟩)) (ix2 u d)).trans ?_
      refine (colsumG_apply (gblk m c ⟨0, h⟩) _ u d).trans ?_
      rw [zeros128_apply, zero_add, Fin.sum_univ_one]
      rfl
    · rw [show outsAt0 m c 0 h = _ from e]; dsimp only
      refine (congrFun (first_4 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
        (iblk m c 0 ⟨0, h⟩) (iblk m c 1 ⟨0, h⟩)) (ix2 u o)).trans ?_
      refine (cross_apply (eblk m c ⟨0, h⟩) (gblk m c ⟨0, h⟩) _ u o).trans ?_
      rw [zeros256'_apply, zero_add, Fin.sum_univ_one]
      rfl
  | n + 1, h => by
    have hN : cfg0.N = 32 := N_0
    have hB : ¬(⟨n + 1, h⟩ : Fin cfg0.N).val % 32 = 0 := by dsimp only; omega
    have e := outsAt0_B m c ⟨n + 1, h⟩ hB
    obtain ⟨ih2, ih3, ih4⟩ := holds c n (Nat.lt_of_succ_lt h)
    refine ⟨fun u o => ?_, fun u d => ?_, fun u o => ?_⟩
    · rw [show outsAt0 m c (n + 1) h = _ from e]; dsimp only
      refine (congrFun (later_2 (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
        (fun hh => hB ((hcond0_0 ⟨n + 1, h⟩).mp hh)) (iblk m c 0 ⟨n + 1, h⟩) (iblk m c 1 ⟨n + 1, h⟩)
        (outsAt0 m c n (Nat.lt_of_succ_lt h)).1 (outsAt0 m c n (Nat.lt_of_succ_lt h)).2.1 (outsAt0 m c n (Nat.lt_of_succ_lt h)).2.2) (ix2 u o)).trans ?_
      refine (colsumE_apply (eblk m c ⟨n + 1, h⟩) _ u o).trans ?_
      rw [ih2 u o, Fin.sum_univ_castSucc (n := n + 1)]
      rfl
    · rw [show outsAt0 m c (n + 1) h = _ from e]; dsimp only
      refine (congrFun (later_3 (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
        (fun hh => hB ((hcond0_0 ⟨n + 1, h⟩).mp hh)) (iblk m c 0 ⟨n + 1, h⟩) (iblk m c 1 ⟨n + 1, h⟩)
        (outsAt0 m c n (Nat.lt_of_succ_lt h)).1 (outsAt0 m c n (Nat.lt_of_succ_lt h)).2.1 (outsAt0 m c n (Nat.lt_of_succ_lt h)).2.2) (ix2 u d)).trans ?_
      refine (colsumG_apply (gblk m c ⟨n + 1, h⟩) _ u d).trans ?_
      rw [ih3 u d, Fin.sum_univ_castSucc (n := n + 1)]
      rfl
    · rw [show outsAt0 m c (n + 1) h = _ from e]; dsimp only
      refine (congrFun (later_4 (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
        (fun hh => hB ((hcond0_0 ⟨n + 1, h⟩).mp hh)) (iblk m c 0 ⟨n + 1, h⟩) (iblk m c 1 ⟨n + 1, h⟩)
        (outsAt0 m c n (Nat.lt_of_succ_lt h)).1 (outsAt0 m c n (Nat.lt_of_succ_lt h)).2.1 (outsAt0 m c n (Nat.lt_of_succ_lt h)).2.2) (ix2 u o)).trans ?_
      refine (cross_apply (eblk m c ⟨n + 1, h⟩) (gblk m c ⟨n + 1, h⟩) _ u o).trans ?_
      rw [ih4 u o, Fin.sum_univ_castSucc (n := n + 1)]
      rfl

end Cert.KernelIdeal.Acc

end
-- ==== Proof.KernelRun.lean ====
/-
  The kernel's run, read: the three result arrays of the call and the scalar the lines after it compute.

  Each accumulator's block never moves, so it is written back once, after the last of the 32 points, and that
  block is the whole [1, 256] (or [1, 128]) array: the array ends holding what the last point left. The lines
  after the call divide the two column sums by the row count, multiply, subtract from the cross sums, and sum
  the absolute values, negated.
-/
import proofs.«100468_j22574348108101_1_alg».proof.Proof.Acc
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

theorem lastLt : 31 < cfg0.N := by rw [show cfg0.N = 32 from N_0]; decide

/-- The last grid point. -/
abbrev tLast : Fin cfg0.N := ⟨31, lastLt⟩

/-- What the last point leaves in the three accumulators, as contents of the call's three result arrays. -/
abbrev resE (c : Dev nD) : Buf (Elt Ideal) ((c : Thread nD τ).loc main_v0_0) := (outsAt0 m c 31 lastLt).1
abbrev resG (c : Dev nD) : Buf (Elt Ideal) ((c : Thread nD τ).loc main_v0_1) := (outsAt0 m c 31 lastLt).2.1
abbrev resX (c : Dev nD) : Buf (Elt Ideal) ((c : Thread nD τ).loc main_v0_2) := (outsAt0 m c 31 lastLt).2.2

/-- The one write-back of the first accumulator, after the last point, writes the whole array. -/
theorem flushedE_eq (c : Dev nD) (t : Fin cfg0.N) (hf : (cfg0.win 2).flush t = true) :
    (dats m 0 c).flushed 2 t = ((cfg0.win 2).blk t).view.read (Elt Ideal) (resE m c) := by
  have hN : cfg0.N = 32 := N_0
  have h3 : t.val = 31 := by have := (flush0_2 t).mp hf; have := t.isLt; omega
  obtain rfl : t = tLast := Fin.ext h3
  show (cfg0.win 2).cut (grid0.coords tLast) ((dats m 0 c).after 2 tLast) = _
  rw [after0_2]
  have hz' : (fun a => win0_2.index tLast a * main_v0_0.ty.shape.size a) = fun _ => 0 := funext fun a => by fin_cases a <;> decide
  exact (Memref.read_access_unit_zero (Elt Ideal) main_v0_0 hz' (fun a => by rw [congrFun hz' a]; simp) (resE m c)).symm

theorem flushedG_eq (c : Dev nD) (t : Fin cfg0.N) (hf : (cfg0.win 3).flush t = true) :
    (dats m 0 c).flushed 3 t = ((cfg0.win 3).blk t).view.read (Elt Ideal) (resG m c) := by
  have hN : cfg0.N = 32 := N_0
  have h3 : t.val = 31 := by have := (flush0_3 t).mp hf; have := t.isLt; omega
  obtain rfl : t = tLast := Fin.ext h3
  show (cfg0.win 3).cut (grid0.coords tLast) ((dats m 0 c).after 3 tLast) = _
  rw [after0_3]
  have hz' : (fun a => win0_3.index tLast a * main_v0_1.ty.shape.size a) = fun _ => 0 := funext fun a => by fin_cases a <;> decide
  exact (Memref.read_access_unit_zero (Elt Ideal) main_v0_1 hz' (fun a => by rw [congrFun hz' a]; simp) (resG m c)).symm

theorem flushedX_eq (c : Dev nD) (t : Fin cfg0.N) (hf : (cfg0.win 4).flush t = true) :
    (dats m 0 c).flushed 4 t = ((cfg0.win 4).blk t).view.read (Elt Ideal) (resX m c) := by
  have hN : cfg0.N = 32 := N_0
  have h3 : t.val = 31 := by have := (flush0_4 t).mp hf; have := t.isLt; omega
  obtain rfl : t = tLast := Fin.ext h3
  show (cfg0.win 4).cut (grid0.coords tLast) ((dats m 0 c).after 4 tLast) = _
  rw [after0_4]
  have hz' : (fun a => win0_4.index tLast a * main_v0_2.ty.shape.size a) = fun _ => 0 := funext fun a => by fin_cases a <;> decide
  exact (Memref.read_access_unit_zero (Elt Ideal) main_v0_2 hz' (fun a => by rw [congrFun hz' a]; simp) (resX m c)).symm

/-- So the first result array ends holding what the last point left: that point's block covers it. -/
theorem finalE (c : Dev nD) : (dats m 0 c).arrAt 2 cfg0.N = resE m c :=
  (dats m 0 c).arrAt_eq_of_cover 2 (resE m c) (flushedE_eq m c) fun i =>
    ⟨tLast, (flush0_2 tLast).mpr rfl, by
      show i ∈ ((View.whole main_v0_0).slice (win0_2.rect tLast)).set
      rw [View.set_slice_whole, Rect.mem_set_unit]
      intro a
      have h0 : (i 0 : Nat) < 1 := (i 0).isLt
      have h1 : (i 1 : Nat) < 256 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 256 from by decide +kernel]; omega⟩

theorem finalG (c : Dev nD) : (dats m 0 c).arrAt 3 cfg0.N = resG m c :=
  (dats m 0 c).arrAt_eq_of_cover 3 (resG m c) (flushedG_eq m c) fun i =>
    ⟨tLast, (flush0_3 tLast).mpr rfl, by
      show i ∈ ((View.whole main_v0_1).slice (win0_3.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 128 from by decide +kernel]; omega⟩

theorem finalX (c : Dev nD) : (dats m 0 c).arrAt 4 cfg0.N = resX m c :=
  (dats m 0 c).arrAt_eq_of_cover 4 (resX m c) (flushedX_eq m c) fun i =>
    ⟨tLast, (flush0_4 tLast).mpr rfl, by
      show i ∈ ((View.whole main_v0_2).slice (win0_4.rect tLast)).set
      rw [View.set_slice_whole, Rect.mem_set_unit]
      intro a
      have h0 : (i 0 : Nat) < 1 := (i 0).isLt
      have h1 : (i 1 : Nat) < 256 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 256 from by decide +kernel]; omega⟩

/-- The lines after the call, as one function of the three result arrays: minus the sum over the columns of
    |cross sums - (n · (column-0 sum of the second input / n)) · (column sums of the first input / n)|. -/
def tail (sE : FVec Ideal S1x256 .f32) (sG : FVec Ideal S1x128 .f32) (sX : FVec Ideal S1x256 .f32) : FVec Ideal S_ .f32 :=
  Host.negf (Host.reduceAdd (Host.absf (subf (shapeCast S256 sX shapeCasts_S1x256_S256)
      (mulf (broadcastInDim S256 ![] bcast_S_S256 (mulf (constant (F := Ideal) S_ .f32 0x48000000#32)
          (Host.divf (shapeCast S_ (extractStridedSlice S1x1 ![0, 0] sG slices_S1x128_S1x1_0_0) shapeCasts_S1x1_S_)
            (constant (F := Ideal) S_ .f32 0x48000000#32))))
        (Host.divf (shapeCast S256 sE shapeCasts_S1x256_S256)
          (broadcastInDim S256 ![] bcast_S_S256 (constant (F := Ideal) S_ .f32 0x48000000#32))))))
    (constant (F := Ideal) S_ .f32 0x00000000#32) reducesTo_S256_S_d0 h_S_)

/-- The program's result is those lines applied to what the last point left. -/
theorem tail_eq (c : Dev nD) :
    Pipeline.afterTail₀ cfgs (dats m) 0 (V0 m) [hostOps1] c main_v14 = tail (resE m c) (resG m c) (resX m c) := by
  have eE : Pipeline.withArrays (cfgs 0).spec c (V0 m c) (fun w => (dats m 0 c).arrAt w (cfgs 0).N) (Proc.devRef .tc main_v0_0)
      = resE m c := (Pipeline.withArrays_arr spec0 launch0.win.arr_inj c _ _ 2).trans (finalE m c)
  have eG : Pipeline.withArrays (cfgs 0).spec c (V0 m c) (fun w => (dats m 0 c).arrAt w (cfgs 0).N) (Proc.devRef .tc main_v0_1)
      = resG m c := (Pipeline.withArrays_arr spec0 launch0.win.arr_inj c _ _ 3).trans (finalG m c)
  have eX : Pipeline.withArrays (cfgs 0).spec c (V0 m c) (fun w => (dats m 0 c).arrAt w (cfgs 0).N) (Proc.devRef .tc main_v0_2)
      = resX m c := (Pipeline.withArrays_arr spec0 launch0.win.arr_inj c _ _ 4).trans (finalX m c)
  unfold Pipeline.afterTail₀
  show StableHlo.after hostOps1 _ (Proc.devRef .tc main_v14) = _
  after_results
  rw [eE, eG, eX]
  rfl

/-- The run, read: the result at the tail of what the last point left, the five arguments unchanged. -/
theorem run : θ_run defs (onTc (τ := τ) (main (F := Ideal))) ⟨m, fun _ => 0, ρ⟩ fun r => ∀ c : Dev nD,
      r.2.mem ((c.tc : Thread nD τ).loc main_v14) = tail (resE m c) (resG m c) (resX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 0).trans (((dats m 0 c).arrAt_in 0 rfl _).trans ((A_eq m c 0).trans (V_main_arg4 m c)))⟩)
    (run_main m ρ)

end Cert.KernelIdeal.RunValue

end
-- ==== Proof.LibERealSums.lean ====
/-
  Finite sums, products and running maxima of extended reals all of whose terms are real numbers.

  On the extended reals multiplication does not distribute over addition at the infinities, and a sum
  cannot be regrouped against a factor there. Every law below is therefore proved by naming the real
  numbers behind the terms, moving the coercion ℝ → EReal outside the sum or product, and doing the
  algebra in ℝ.
-/
import Mathlib.Data.EReal.Operations
import Mathlib.Algebra.BigOperators.Group.Finset.Basic
import Mathlib.Algebra.BigOperators.Ring.Finset
import Mathlib.Data.Finset.Fold
import Mathlib.Tactic.Ring

namespace Cert.ERealSums

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real extended reals is real. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A difference of two real extended reals is real. -/
theorem exists_real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- A finite sum of real extended reals is real. -/
theorem exists_real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl (fun i _ => hg i)⟩

/-- A finite sum of products of real extended reals (an inner product of two real vectors) is real. -/
theorem exists_real_sum_mul {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) :=
  exists_real_sum s _ (fun i => exists_real_mul (hf i) (hg i))

/-- The maximum of two real extended reals is real. -/
theorem exists_real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- The running maximum, started from ⊥, of real values over a NONEMPTY finite set is real (over the empty
    set it is ⊥). -/
theorem exists_real_fold_max {ι : Type*} (s : Finset ι) (hs : s.Nonempty) (f : ι → EReal)
    (hf : ∀ i, ∃ r : ℝ, f i = (r : EReal)) : ∃ r : ℝ, s.fold max ⊥ f = (r : EReal) := by
  induction hs using Finset.Nonempty.cons_induction with
  | singleton a => rw [Finset.fold_singleton, max_bot_right]; exact hf a
  | cons a s ha hs ih => rw [Finset.fold_cons]; exact exists_real_max (hf a) ih

/-- A real factor moves out of a finite sum of products of reals: ∑ x·(w·c) = (∑ x·w)·c. (False on the
    extended reals in general: the sum on the right can be ⊤ + ⊥.) -/
theorem sum_mul_mul_eq_sum_mul_mul {ι : Type*} (s : Finset ι) (x w : ι → EReal) (c : EReal)
    (hx : ∀ i, ∃ r : ℝ, x i = (r : EReal)) (hw : ∀ i, ∃ r : ℝ, w i = (r : EReal)) (hc : ∃ r : ℝ, c = (r : EReal)) :
    ∑ i ∈ s, x i * (w i * c) = (∑ i ∈ s, x i * w i) * c := by
  choose a ha using hx
  choose b hb using hw
  obtain ⟨t, rfl⟩ := hc
  have h1 : ∀ i, x i * (w i * (t : EReal)) = ((a i * (b i * t) : ℝ) : EReal) := fun i => by
    rw [ha i, hb i, EReal.coe_mul, EReal.coe_mul]
  have h2 : ∀ i, x i * w i = ((a i * b i : ℝ) : EReal) := fun i => by rw [ha i, hb i, EReal.coe_mul]
  rw [Finset.sum_congr rfl (fun i _ => h1 i), Finset.sum_congr rfl (fun i _ => h2 i), ← coe_finset_sum,
    ← coe_finset_sum, ← EReal.coe_mul, Finset.sum_mul]
  exact congrArg _ (Finset.sum_congr rfl (fun i _ => by ring))

end Cert.ERealSums
-- ==== Proof.Covariance.lean ====
/-
  The algebra that joins the two programs, over abstract finite index types.

  For real numbers e i, g i over a finite type of n rows, write se = ∑ e i and sg = ∑ g i. The sum of
  the products of the centred values, ∑ (e i - se/n) (g i - sg/n), is ∑ e i g i - (n (sg/n)) (se/n):
  expanding the product, the two cross terms are each -(se sg)/n and the constant term is +(se sg)/n.
  On the extended reals this law fails at the infinities (a difference ⊤ - ⊤ appears), so it is proved
  for values that are real numbers, by naming the reals and moving the coercion outward.

  Also here: a sum over the rows taken block by block is the sum over all rows, which holds in any
  commutative monoid and needs no finiteness.
-/
import Idealize.ShloMosaic.PureOps.Ideal
import proofs.«100468_j22574348108101_1_alg».proof.Proof.LibERealSums
import Mathlib.Algebra.BigOperators.Fin
import Mathlib.Logic.Equiv.Fin.Basic
import Mathlib.Tactic.Ring
import Mathlib.Tactic.FieldSimp

noncomputable section

namespace Cert.Covariance

open Idealize.ShloMosaic Cert.ERealSums

/-- The absolute value on the extended reals, as both programs compute it: the larger of a value and its negation. -/
def absE (y : EReal) : EReal := max y (-y)

/-- Over the reals: the centred cross sum against the raw cross sum and the two plain sums. -/
theorem centred_sum_real {ι : Type*} [Fintype ι] (e g : ι → ℝ) (n : ℝ) (hn : n ≠ 0)
    (hcard : (Fintype.card ι : ℝ) = n) :
    ∑ i, (e i - (∑ j, e j) * (1 / n)) * (g i - (∑ j, g j) * (1 / n))
      = ∑ i, e i * g i - (n * ((∑ j, g j) * (1 / n))) * ((∑ j, e j) * (1 / n)) := by
  set se := ∑ j, e j with hse
  set sg := ∑ j, g j with hsg
  have h : ∀ i, (e i - se * (1 / n)) * (g i - sg * (1 / n))
      = e i * g i - (sg * (1 / n)) * e i - (se * (1 / n)) * g i + (se * (1 / n)) * (sg * (1 / n)) := fun i => by ring
  rw [Finset.sum_congr rfl (fun i _ => h i), Finset.sum_add_distrib, Finset.sum_sub_distrib, Finset.sum_sub_distrib,
    ← Finset.mul_sum, ← Finset.mul_sum, Finset.sum_const, Finset.card_univ, nsmul_eq_mul, hcard, ← hse, ← hsg]
  field_simp
  ring

/-- On the extended reals, for real values: the same law, with the quotients by `n` as the host's and the
    kernel's division and the sums started from zero as the host's reduction starts them. -/
theorem centred_sum {ι : Type*} [Fintype ι] (E G : ι → EReal) (n : ℝ) (hn : n ≠ 0)
    (hcard : (Fintype.card ι : ℝ) = n)
    (hE : ∀ i, ∃ r : ℝ, E i = (r : EReal)) (hG : ∀ i, ∃ r : ℝ, G i = (r : EReal)) :
    (0 : EReal) + ∑ i, (E i - Ideal.div (0 + ∑ j, E j) (n : EReal)) * (G i - Ideal.div (0 + ∑ j, G j) (n : EReal))
      = ∑ i, E i * G i - ((n : EReal) * Ideal.div (∑ j, G j) (n : EReal)) * Ideal.div (∑ j, E j) (n : EReal) := by
  choose e he using hE
  choose g hg using hG
  obtain rfl : E = fun i => (e i : EReal) := funext he
  obtain rfl : G = fun i => (g i : EReal) := funext hg
  simp only [zero_add, Ideal.div_coe hn, ← coe_finset_sum, ← EReal.coe_mul, ← EReal.coe_sub]
  exact congrArg _ (centred_sum_real e g n hn hcard)

/-- A sum over `a * b` rows is the sum over the `a` blocks of the sums over each block's `b` rows (row
    `b * t + r` is row `r` of block `t`); in any commutative monoid, so on the extended reals with no finiteness. -/
theorem sum_blocks {M : Type*} [AddCommMonoid M] (a b : ℕ) (f : Fin (a * b) → M) :
    ∑ i, f i = ∑ t : Fin a, ∑ r : Fin b, f (finProdFinEquiv (t, r)) := by
  rw [← Fintype.sum_prod_type', ← Equiv.sum_comp finProdFinEquiv]

end Cert.Covariance

end
-- ==== Proof.Consts.lean ====
/-
  The one float constant both programs divide and multiply by: the pattern 0x48000000 is 2^17 = 131072, the
  number of rows.
-/
import Idealize.ShloMosaic.PureOps.Ideal

noncomputable section

namespace Cert.Consts

open Idealize.ShloMosaic

/-- The f32 pattern 0x48000000 denotes the real number 131072. -/
theorem ofBits_131072 : Ideal.ofBits .f32 0x48000000#32 = ((131072 : ℝ) : EReal) := by
  simp [Ideal.ofBits, Ideal.ieee, -EReal.coe_mul]; norm_num

/-- The f32 pattern 0x7F800000 denotes +inf, the top of the extended reals. -/
theorem ofBits_inf : Ideal.ofBits .f32 0x7F800000#32 = ⊤ := by
  simp [Ideal.ofBits, Ideal.ieee]

end Cert.Consts

end
-- ==== Proof.KernelValue.lean ====
/-
  The kernel's result, read index by index on the extended reals.

  Row `r` of the block that grid point `t` reads is row `4096 t + r` of the input, so the sums the 32 points
  accumulate block by block are the sums over all 131072 rows. With n the row count the lines after the call
  then give minus the sum over the columns of | cross sum - (n · (column-0 sum / n)) · (column sum / n) |.
-/
import proofs.«100468_j22574348108101_1_alg».proof.Proof.KernelRun
import proofs.«100468_j22574348108101_1_alg».proof.Proof.Covariance
import proofs.«100468_j22574348108101_1_alg».proof.Proof.Consts

noncomputable section

open Idealize.ShloMosaic Idealize.ShloMosaic.TcCoe Idealize.SL.Sem Idealize.ShloMosaic.ValueIdx

namespace Cert.KernelIdeal.Closed

open Cert.KernelIdeal Cert.KernelIdeal.Gen Cert.KernelIdeal.Acc Cert.KernelIdeal.RunValue Cert.Covariance

variable (m : (ℓ : Loc nD τ sig) → Buf (Elt Ideal) ℓ)

/-- The row count 131072 as an extended real. -/
abbrev nrows : EReal := ((131072 : ℝ) : EReal)

/-- The first input (the [131072, 256] array) and the second (the [131072, 128] array), as the program finds them. -/
abbrev earr (c : Dev nD) : FVec Ideal S131072x256 .f32 := m ((c : Thread nD τ).loc main_arg4)
abbrev garr (c : Dev nD) : FVec Ideal S131072x128 .f32 := m ((c : Thread nD τ).loc main_arg3)

/-- The first input's window at point `t` is block `(t, 0)`; -/
theorem idxE : ∀ t : Fin cfg0.N, win0_0.index t (0 : Fin 2) = t.val ∧ win0_0.index t (1 : Fin 2) = 0 :=
  (by decide +kernel : ∀ t : Fin grid0.N, _)
/-- and so is the second input's. -/
theorem idxG : ∀ t : Fin cfg0.N, win0_1.index t (0 : Fin 2) = t.val ∧ win0_1.index t (1 : Fin 2) = 0 :=
  (by decide +kernel : ∀ t : Fin grid0.N, _)

/-- Row `r` of block `t`, as a row of the input. -/
abbrev rowOf (t : Fin cfg0.N) (r : Fin 4096) : Fin 131072 :=
  ⟨4096 * t.val + r.val, by have := t.isLt; have hN : cfg0.N = 32 := N_0; have := r.isLt; omega⟩

theorem eblk_apply (c : Dev nD) (t : Fin cfg0.N) (r : Fin 4096) (o : Fin 256) :
    eblk m c t (ix2 r o) = earr m c (ix2 (rowOf t r) o) := by
  unfold eblk iblk
  rw [View.read_apply]
  show earr m c _ = _
  congr 1
  funext a
  apply Fin.ext
  match a with
  | ⟨0, _⟩ => show win0_0.index t 0 * 4096 + 1 * r.val = 4096 * t.val + r.val; rw [(idxE t).1]; omega
  | ⟨1, _⟩ => show win0_0.index t 1 * 256 + 1 * o.val = o.val; rw [(idxE t).2]; omega

theorem gblk_apply (c : Dev nD) (t : Fin cfg0.N) (r : Fin 4096) (d : Fin 128) :
    gblk m c t (ix2 r d) = garr m c (ix2 (rowOf t r) d) := by
  unfold gblk iblk
  rw [View.read_apply]
  show garr m c _ = _
  congr 1
  funext a
  apply Fin.ext
  match a with
  | ⟨0, _⟩ => show win0_1.index t 0 * 4096 + 1 * r.val = 4096 * t.val + r.val; rw [(idxG t).1]; omega
  | ⟨1, _⟩ => show win0_1.index t 1 * 128 + 1 * d.val = d.val; rw [(idxG t).2]; omega

/-- The sum over the 32 blocks of the sums over each block's 4096 rows is the sum over the 131072 rows. -/
theorem sum_rows_by_blocks {M : Type*} [AddCommMonoid M] (f : Fin 131072 → M) :
    ∑ t : Fin 32, ∑ r : Fin 4096, f ⟨4096 * t.val + r.val, by have := t.isLt; have := r.isLt; omega⟩ = ∑ i, f i := by
  refine Eq.trans ?_ (sum_blocks 32 4096 f).symm
  refine Finset.sum_congr rfl fun t _ => Finset.sum_congr rfl fun r _ => congrArg f (Fin.ext ?_)
  show 4096 * t.val + r.val = r.val + 4096 * t.val
  omega

/-! ## The lines after the call, at an index -/

/-- A scalar spread over the 256 columns reads the scalar everywhere. -/
theorem bcast_scalar (y : FVec Ideal S_ .f32) (j : S256.Idx) : broadcastInDim S256 ![] bcast_S_S256 y j = y ix0 :=
  broadcastInDim_apply _ bcast_S_S256 y j ix0 (fun a => a.elim0)

/-- A [1, 1] array cast to a scalar reads its one entry. -/
theorem cast_scalar (x : FVec Ideal S1x1 .f32) (i : S_.Idx) :
    shapeCast S_ x shapeCasts_S1x1_S_ i = x (ix2 (0 : Fin 1) (0 : Fin 1)) :=
  shapeCast_apply x shapeCasts_S1x1_S_ i (ix2 (0 : Fin 1) (0 : Fin 1)) (by
    rw [Shape.rowMajor_val_two]
    have h : (S_.rowMajor i).val < 1 := (S_.rowMajor i).isLt
    show 0 * 1 + 0 = _
    omega)

/-- The [0:1, 0:1] corner of the second accumulator is its entry at column 0. -/
theorem corner_apply (sG : FVec Ideal S1x128 .f32) :
    extractStridedSlice S1x1 ![0, 0] sG slices_S1x128_S1x1_0_0 (ix2 (0 : Fin 1) (0 : Fin 1)) = sG (ix2 (0 : Fin 1) (0 : Fin 128)) :=
  extractStridedSlice_apply _ sG _ (ix2 (0 : Fin 1) (0 : Fin 1)) (ix2 (0 : Fin 1) (0 : Fin 128)) (fun a => by
    match a with
    | ⟨0, _⟩ => rfl
    | ⟨1, _⟩ => rfl)

/-- The 256 column values the last sum adds up. -/
def cols (sE : FVec Ideal S1x256 .f32) (sG : FVec Ideal S1x128 .f32) (sX : FVec Ideal S1x256 .f32) : FVec Ideal S256 .f32 :=
  Host.absf (subf (shapeCast S256 sX shapeCasts_S1x256_S256)
      (mulf (broadcastInDim S256 ![] bcast_S_S256 (mulf (constant (F := Ideal) S_ .f32 0x48000000#32)
          (Host.divf (shapeCast S_ (extractStridedSlice S1x1 ![0, 0] sG slices_S1x128_S1x1_0_0) shapeCasts_S1x1_S_)
            (constant (F := Ideal) S_ .f32 0x48000000#32))))
        (Host.divf (shapeCast S256 sE shapeCasts_S1x256_S256)
          (broadcastInDim S256 ![] bcast_S_S256 (constant (F := Ideal) S_ .f32 0x48000000#32)))))

theorem tail_eq_cols (sE : FVec Ideal S1x256 .f32) (sG : FVec Ideal S1x128 .f32) (sX : FVec Ideal S1x256 .f32) :
    tail sE sG sX = Host.negf (Host.reduceAdd (cols sE sG sX) (constant (F := Ideal) S_ .f32 0x00000000#32) reducesTo_S256_S_d0 h_S_) := rfl

/-- Minus the sum, started from zero, of 256 values. -/
theorem neg_sum_apply (y0 : FVec Ideal S256 .f32) (i : S_.Idx) :
    Host.negf (Host.reduceAdd y0 (constant (F := Ideal) S_ .f32 0x00000000#32) reducesTo_S256_S_d0 h_S_) i
      = -(0 + ∑ j : S256.Idx, y0 j) := by
  show -(Host.reduceAdd y0 _ reducesTo_S256_S_d0 h_S_ i) = _
  simp only [Host.reduceAdd, Ideal.hostReduceAdd_def]
  rw [Ideal.hostReduceAdd_total reducesTo_S256_S_d0 (fun b => b.elim0)]
  exact congrArg (fun z : EReal => -(z + ∑ j : S256.Idx, y0 j)) Ideal.ofBits_zero_f32

/-- One column value: | cross sum - (n · (column-0 sum / n)) · (column sum / n) |. -/
theorem cols_apply (sE : FVec Ideal S1x256 .f32) (sG : FVec Ideal S1x128 .f32) (sX : FVec Ideal S1x256 .f32) (o : Fin 256) :
    cols sE sG sX (ix1 o)
      = absE (sX (ix2 (0 : Fin 1) o)
          - (nrows * Ideal.div (sG (ix2 (0 : Fin 1) (0 : Fin 128))) nrows) * Ideal.div (sE (ix2 (0 : Fin 1) o)) nrows) := by
  unfold cols
  show absE (shapeCast S256 sX shapeCasts_S1x256_S256 (ix1 o)
      - broadcastInDim S256 ![] bcast_S_S256 (mulf (constant (F := Ideal) S_ .f32 0x48000000#32)
          (Host.divf (shapeCast S_ (extractStridedSlice S1x1 ![0, 0] sG slices_S1x128_S1x1_0_0) shapeCasts_S1x1_S_)
            (constant (F := Ideal) S_ .f32 0x48000000#32))) (ix1 o)
        * Ideal.div (shapeCast S256 sE shapeCasts_S1x256_S256 (ix1 o))
            (broadcastInDim S256 ![] bcast_S_S256 (constant (F := Ideal) S_ .f32 0x48000000#32) (ix1 o))) = _
  rw [shapeCast_1a_a_apply, shapeCast_1a_a_apply, bcast_scalar, bcast_scalar]
  show absE (_ - (Ideal.ofBits .f32 0x48000000#32
      * Ideal.div (shapeCast S_ (extractStridedSlice S1x1 ![0, 0] sG slices_S1x128_S1x1_0_0) shapeCasts_S1x1_S_ ix0)
          (Ideal.ofBits .f32 0x48000000#32)) * Ideal.div _ (Ideal.ofBits .f32 0x48000000#32)) = _
  rw [cast_scalar, corner_apply, Cert.Consts.ofBits_131072]

/-- The kernel's scalar, of the two inputs. -/
theorem kernel_apply (c : Dev nD) (i : S_.Idx) :
    tail (resE m c) (resG m c) (resX m c) i
      = -(0 + ∑ j : S256.Idx, absE
          ((∑ k : Fin 131072, earr m c (ix2 k (j 0))
                * garr m c (ix2 k (0 : Fin 128)))
            - (nrows * Ideal.div (∑ k : Fin 131072, garr m c (ix2 k (0 : Fin 128))) nrows)
              * Ideal.div (∑ k : Fin 131072, earr m c (ix2 k (j 0))) nrows)) := by
  rw [tail_eq_cols, neg_sum_apply]
  refine congrArg (fun z : EReal => -(0 + z)) (Finset.sum_congr rfl fun j _ => ?_)
  obtain ⟨o, rfl⟩ : ∃ o : Fin 256, j = ix1 o := ⟨j 0, eq_ix1 j⟩
  rw [cols_apply]
  have hE : resE m c (ix2 (0 : Fin 1) o)
      = ∑ k : Fin 131072, earr m c (ix2 k o) := by
    refine ((holds m c 31 lastLt).1 0 o).trans ?_
    simp only [eblk_apply]
    exact sum_rows_by_blocks (fun k => earr m c (ix2 k o))
  have hG : resG m c (ix2 (0 : Fin 1) (0 : Fin 128))
      = ∑ k : Fin 131072, garr m c (ix2 k (0 : Fin 128)) := by
    refine ((holds m c 31 lastLt).2.1 0 0).trans ?_
    simp only [gblk_apply]
    exact sum_rows_by_blocks (fun k => garr m c (ix2 k (0 : Fin 128)))
  have hX : resX m c (ix2 (0 : Fin 1) o)
      = ∑ k : Fin 131072, earr m c (ix2 k o)
          * garr m c (ix2 k (0 : Fin 128)) := by
    refine ((holds m c 31 lastLt).2.2 0 o).trans ?_
    simp only [eblk_apply, gblk_apply]
    exact sum_rows_by_blocks (fun k => earr m c (ix2 k o)
      * garr m c (ix2 k (0 : Fin 128)))
  rw [hE, hG, hX]

end Cert.KernelIdeal.Closed

end
-- ==== Proof.RefValue.lean ====
/-
  The reference's result, read index by index on the extended reals.

  With n the row count, the reference centres every column of both inputs by its mean (the column sum, started
  from zero, divided by n), multiplies the centred first input, column by column, with the centred column 0 of
  the second input, sums each column of products over the rows, and returns minus the sum of the absolute values.
-/
import proofs.«100468_j22574348108101_1_alg».proof.Proof.Gen.ReferenceIdeal.Read
import proofs.«100468_j22574348108101_1_alg».proof.Proof.Consts
import proofs.«100468_j22574348108101_1_alg».proof.Proof.Covariance
import Idealize.ShloMosaic.Lib.ValueIdx
import Idealize.ShloMosaic.PureOps.Ideal.Laws

noncomputable section

open Idealize.ShloMosaic Idealize.ShloMosaic.ValueIdx

namespace Cert.ReferenceIdeal.Closed

open Cert.ReferenceIdeal Cert.ReferenceIdeal.Read Cert.Covariance

/-- The row count 131072 as an extended real. -/
abbrev nrows : EReal := ((131072 : ℝ) : EReal)

/-! The index maps the reading lemmas compose, at coordinates. -/

theorem idx_col (o : Fin 256) (k : Fin 131072) : idx_main_v15 (ix1 o) k = ix2 k o :=
  funext fun a => by match a with | ⟨0, _⟩ => rfl | ⟨1, _⟩ => rfl
theorem idx_meanE (k : Fin 131072) (o : Fin 256) : idx_main_v3 (idx_main_v4 (ix2 k o)) = ix1 o :=
  funext fun a => by match a with | ⟨0, _⟩ => rfl
theorem idx_sumE (o : Fin 256) (k : Fin 131072) : idx_main_v0 (ix1 o) k = ix2 k o :=
  funext fun a => by match a with | ⟨0, _⟩ => rfl | ⟨1, _⟩ => rfl
theorem idx_col0 (k : Fin 131072) (o : Fin 256) : idx_main_v12 (idx_main_v13 (ix2 k o)) = ix2 k (0 : Fin 128) :=
  funext fun a => by match a with | ⟨0, _⟩ => rfl | ⟨1, _⟩ => rfl
theorem idx_meanG (k : Fin 131072) : idx_main_v9 (idx_main_v10 (ix2 k (0 : Fin 128))) = ix1 (0 : Fin 128) :=
  funext fun a => by match a with | ⟨0, _⟩ => rfl
theorem idx_sumG (k : Fin 131072) : idx_main_v6 (ix1 (0 : Fin 128)) k = ix2 k (0 : Fin 128) :=
  funext fun a => by match a with | ⟨0, _⟩ => rfl | ⟨1, _⟩ => rfl

/-- One entry of the product array: the centred first input times the centred column 0 of the second. -/
theorem prod_apply (x3 : FVec Ideal S131072x128 .f32) (x4 : FVec Ideal S131072x256 .f32) (k : Fin 131072) (o : Fin 256) :
    val_main_v14 (F := Ideal) x3 x4 (ix2 k o)
      = (x4 (ix2 k o) - Ideal.div (0 + ∑ k' : Fin 131072, x4 (ix2 k' o)) nrows)
          * (x3 (ix2 k (0 : Fin 128)) - Ideal.div (0 + ∑ k' : Fin 131072, x3 (ix2 k' (0 : Fin 128))) nrows) := by
  rw [val_main_v14_apply, val_main_v5_apply, val_main_v4_apply, val_main_v3_apply, idx_meanE, val_main_v2_apply,
    val_main_v0_apply, val_main_v1_apply, val_main_v13_apply, val_main_v12_apply, idx_col0, val_main_v11_apply,
    val_main_v10_apply, val_main_v9_apply, idx_meanG, val_main_v8_apply, val_main_v6_apply, val_main_v7_apply]
  simp only [idx_sumE, idx_sumG, val_main_cst_apply, val_main_cst_0_apply, val_main_cst_1_apply, val_main_cst_2_apply,
    Ideal.mulf_def, Ideal.subf_def, Ideal.hostDivf_def, Ideal.ofBits_def, Ideal.ofBits_zero_f32, Cert.Consts.ofBits_131072]

/-- The reference's scalar: minus the sum over the columns of the absolute values of the centred cross sums. -/
theorem ref_apply (x3 : FVec Ideal S131072x128 .f32) (x4 : FVec Ideal S131072x256 .f32) (i : S_.Idx) :
    val_main_v18 (F := Ideal) x3 x4 i
      = -(0 + ∑ j : S256.Idx, absE
          (0 + ∑ k : Fin 131072,
            (x4 (ix2 k (j 0)) - Ideal.div (0 + ∑ k' : Fin 131072, x4 (ix2 k' (j 0))) nrows)
              * (x3 (ix2 k (0 : Fin 128)) - Ideal.div (0 + ∑ k' : Fin 131072, x3 (ix2 k' (0 : Fin 128))) nrows))) := by
  rw [val_main_v18_apply, val_main_v17_apply]
  show -(_ + _) = -(_ + _)
  refine congrArg Neg.neg (congrArg₂ (· + ·) Ideal.ofBits_zero_f32 (Finset.sum_congr rfl fun j _ => ?_))
  obtain ⟨o, rfl⟩ : ∃ o : Fin 256, j = ix1 o := ⟨j 0, eq_ix1 j⟩
  rw [val_main_v16_apply, val_main_v15_apply]
  show absE (_ + _) = absE (_ + _)
  refine congrArg absE (congrArg₂ (· + ·) Ideal.ofBits_zero_f32 (Finset.sum_congr rfl fun k _ => ?_))
  rw [idx_col]
  exact prod_apply x3 x4 k o

end Cert.ReferenceIdeal.Closed

end
-- ==== Proof.Finite.lean ====
/-
  The precondition says every entry of the two matrix inputs is a real number.

  The precondition is the conjunction, over the five inputs, of "every entry's absolute value is below +inf".
  An extended real whose absolute value max x (-x) is below ⊤ is neither ⊤ nor ⊥, so it is a real number.
-/
import proofs.«100468_j22574348108101_1_alg».proof.Pre_finite_inputs
import proofs.«100468_j22574348108101_1_alg».proof.Proof.Gen.Pre_finite_inputs
import proofs.«100468_j22574348108101_1_alg».proof.Proof.Consts
import Idealize.ShloMosaic.Lib.ReduceAll
import Idealize.ShloMosaic.Lib.Affine
import Idealize.ShloMosaic.Lib.ValueIdx
import Idealize.ShloMosaic.PureOps.Ideal.Laws

noncomputable section

open Idealize.ShloMosaic

namespace Cert.Finite

open Cert.Pre_finite_inputs

instance : Subsingleton S_.Idx := ⟨fun a b => funext fun d => d.elim0⟩

/-- An extended real whose absolute value compares below +inf is a real number. -/
theorem real_of_abs_lt (x : EReal)
    (h : Ideal.cmp .olt (max x (-x)) (Ideal.ofBits .f32 0x7F800000#32) = 1#1) : ∃ r : ℝ, x = (r : EReal) := by
  rw [Cert.Consts.ofBits_inf] at h
  induction x using EReal.rec with
  | bot => exact absurd h (by simp [Ideal.cmp])
  | coe r => exact ⟨r, rfl⟩
  | top => exact absurd h (by simp [Ideal.cmp])

/-- Under the precondition the two matrix inputs hold real numbers only. -/
theorem real_of_pre (x0 : FVec Ideal S131072x1 .f32) (x1 x2 : FVec Ideal S1 .f32) (x3 : FVec Ideal S131072x128 .f32)
    (x4 : FVec Ideal S131072x256 .f32) (h : fn (F := Ideal) x0 x1 x2 x3 x4 = fun _ => 1#1) :
    (∀ i, ∃ r : ℝ, x3 i = (r : EReal)) ∧ (∀ i, ∃ r : ℝ, x4 i = (r : EReal)) := by
  have h0 := congrFun h ValueIdx.ix0
  dsimp only [fn, fn_part1] at h0
  obtain ⟨h0', e4⟩ := IntOp.andi_eq_one.mp h0
  obtain ⟨-, e3⟩ := IntOp.andi_eq_one.mp h0'
  exact ⟨fun i => real_of_abs_lt (x3 i) (Host.reduce_andi_all _ _ _ _ _ e3 i),
    fun i => real_of_abs_lt (x4 i) (Host.reduce_andi_all _ _ _ _ _ e4 i)⟩

end Cert.Finite

end
-- ==== Proof.Bridge.lean ====
/-
  The two results are one number.

  Under the precondition both inputs hold real numbers. For such inputs, column by column, the reference's sum of
  products of centred values is the kernel's cross sum minus (n · (column-0 sum / n)) · (column sum / n): the
  covariance identity, with n = 131072 rows. The absolute values, their sum over the 256 columns and the final
  negation are the same operations on both sides.
-/
import proofs.«100468_j22574348108101_1_alg».proof.Proof.KernelValue
import proofs.«100468_j22574348108101_1_alg».proof.Proof.RefValue
import proofs.«100468_j22574348108101_1_alg».proof.Proof.Finite

noncomputable section

open Idealize.ShloMosaic Idealize.ShloMosaic.ValueIdx

namespace Cert.Bridge

open Cert.Covariance

/-- For inputs holding real numbers, the reference's closed form is the kernel's. -/
theorem closed_forms_eq (A : (⟨2, ![131072, 256]⟩ : Shape).Idx → EReal) (G : (⟨2, ![131072, 128]⟩ : Shape).Idx → EReal)
    (hA : ∀ i, ∃ r : ℝ, A i = (r : EReal)) (hG : ∀ i, ∃ r : ℝ, G i = (r : EReal)) :
    -(0 + ∑ j : (⟨1, ![256]⟩ : Shape).Idx, absE
          (0 + ∑ k : Fin 131072,
            (A (ix2 k (j 0)) - Ideal.div (0 + ∑ k' : Fin 131072, A (ix2 k' (j 0))) ((131072 : ℝ) : EReal))
              * (G (ix2 k (0 : Fin 128)) - Ideal.div (0 + ∑ k' : Fin 131072, G (ix2 k' (0 : Fin 128))) ((131072 : ℝ) : EReal))))
      = -(0 + ∑ j : (⟨1, ![256]⟩ : Shape).Idx, absE
          ((∑ k : Fin 131072, A (ix2 k (j 0)) * G (ix2 k (0 : Fin 128)))
            - (((131072 : ℝ) : EReal) * Ideal.div (∑ k : Fin 131072, G (ix2 k (0 : Fin 128))) ((131072 : ℝ) : EReal))
              * Ideal.div (∑ k : Fin 131072, A (ix2 k (j 0))) ((131072 : ℝ) : EReal))) := by
  refine congrArg (fun z : EReal => -(0 + z)) (Finset.sum_congr rfl fun j _ => congrArg absE ?_)
  exact centred_sum (fun k : Fin 131072 => A (ix2 k (j 0))) (fun k : Fin 131072 => G (ix2 k (0 : Fin 128))) 131072
    (by norm_num) (by simp) (fun k => hA _) (fun k => hG _)

end Cert.Bridge

end
-- ==== Proof.lean ====
/-
  A streaming covariance reduction against its textbook definition, over the extended reals.

  The kernel walks the 131072 rows of two matrices in 32 blocks and keeps three running sums: the column sums of the
  first matrix, the column sums of the second, and, per column of the first, the sum of its products with column 0 of
  the second. Afterwards, with n = 131072, it returns
      - ∑_o | X[o] - (n · (sG[0] / n)) · (sE[o] / n) | .
  The reference centres both matrices by their column means and returns
      - ∑_o | ∑_i (e[i,o] - sE[o]/n) · (g[i,0] - sG[0]/n) | .
  For finite inputs these are equal: expanding the product, the cross terms cancel against the means
  (Proof/Covariance.lean). Finiteness is the precondition (Proof/Finite.lean); on the extended reals the identity is false
  at the infinities.

  The kernel's frames are the generated ones. Its value is read off the generated frame run: what each point leaves in
  the accumulators (Proof/Pieces.lean, Proof/Payloads.lean), by induction the sums over the blocks so far (Proof/Acc.lean),
  the one write-back after the last point and the lines after the call (Proof/KernelRun.lean), and those sums as sums over
  all rows (Proof/KernelValue.lean). The reference's value is its generated run read index by index (Proof/RefValue.lean).
  The idealized kernel is the kernel's own text read over the extended reals, so the claim relating the two is trivial.
-/
import proofs.«100468_j22574348108101_1_alg».proof.Defs
import proofs.«100468_j22574348108101_1_alg».proof.Proof.Gen.Kernel
import proofs.«100468_j22574348108101_1_alg».proof.Proof.Gen.Kernel.Skeleton
import proofs.«100468_j22574348108101_1_alg».proof.Proof.Gen.Kernel.Launch
import proofs.«100468_j22574348108101_1_alg».proof.Proof.Gen.Kernel.Points
import proofs.«100468_j22574348108101_1_alg».proof.Proof.Gen.Kernel.Frame
import proofs.«100468_j22574348108101_1_alg».proof.Proof.Gen.KernelIdeal
import proofs.«100468_j22574348108101_1_alg».proof.Proof.Gen.KernelIdeal.Skeleton
import proofs.«100468_j22574348108101_1_alg».proof.Proof.Gen.KernelIdeal.Launch
import proofs.«100468_j22574348108101_1_alg».proof.Proof.Gen.KernelIdeal.Points
import proofs.«100468_j22574348108101_1_alg».proof.Proof.Gen.KernelIdeal.Frame
import proofs.«100468_j22574348108101_1_alg».proof.Proof.Gen.ReferenceIdeal
import proofs.«100468_j22574348108101_1_alg».proof.Proof.Gen.Pre_finite_inputs
import proofs.«100468_j22574348108101_1_alg».proof.Proof.Gen.ReferenceIdeal.Run
import proofs.«100468_j22574348108101_1_alg».proof.Proof.Gen.ReferenceIdeal.Read
import proofs.«100468_j22574348108101_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end, from memories that agree on the inputs, with the same scalar: the kernel's closed form, which
    for the finite inputs the precondition admits is the reference's. -/
theorem algebraic : Cert.algebraic_KernelIdeal_ReferenceIdeal := by
  intro m ρ m' ρ' hpre hagree
  refine ⟨fun c => Cert.KernelIdeal.RunValue.tail (Cert.KernelIdeal.RunValue.resE m c) (Cert.KernelIdeal.RunValue.resG m c)
    (Cert.KernelIdeal.RunValue.resX m c), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).2.2.2.1, (hagree c).2.2.2.2]
  obtain ⟨hG, hE⟩ := Cert.Finite.real_of_pre _ _ _ _ _ (hpre c)
  funext i
  refine (Cert.ReferenceIdeal.Closed.ref_apply _ _ i).trans ?_
  refine Eq.trans ?_ (Cert.KernelIdeal.Closed.kernel_apply m c i).symm
  exact Cert.Bridge.closed_forms_eq _ _ hE hG

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
